-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x512 : Shape := ⟨2, ![11008, 512]⟩
abbrev S11008x32 : Shape := ⟨2, ![11008, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S8192x4096 .f32) (main_arg1 : IVec S11008x512 32) (main_arg2 : FVec F S11008x32 .f32) (main_arg3 : FVec F S11008x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  main_v13
-- ==== Kernel.lean ====
abbrev S8192x4096 : Shape := ⟨2, ![8192, 4096]⟩
abbrev S11008x512 : Shape := ⟨2, ![11008, 512]⟩
abbrev S11008x32 : Shape := ⟨2, ![11008, 32]⟩
abbrev S8192x512x8 : Shape := ⟨3, ![8192, 512, 8]⟩
abbrev S8192x8x512 : Shape := ⟨3, ![8192, 8, 512]⟩
abbrev S11008x32x16 : Shape := ⟨3, ![11008, 32, 16]⟩
abbrev S_ : Shape := ⟨0, ![]⟩
abbrev S11264x512 : Shape := ⟨2, ![11264, 512]⟩
abbrev S8192x11264 : Shape := ⟨2, ![8192, 11264]⟩
abbrev S256x4096 : Shape := ⟨2, ![256, 4096]⟩
abbrev S1024x512 : Shape := ⟨2, ![1024, 512]⟩
abbrev S256x1024 : Shape := ⟨2, ![256, 1024]⟩
abbrev S1024x4096 : Shape := ⟨2, ![1024, 4096]⟩
abbrev S8192x11008 : Shape := ⟨2, ![8192, 11008]⟩

abbrev nBuf : Space → Nat
  | .hbm => 23
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S11008x512, .i32⟩
  | .hbm, ⟨2, _⟩ => ⟨S11008x32, .f32⟩
  | .hbm, ⟨3, _⟩ => ⟨S11008x32, .f32⟩
  | .hbm, ⟨4, _⟩ => ⟨S8192x4096, .bf16⟩
  | .hbm, ⟨5, _⟩ => ⟨S8192x512x8, .bf16⟩
  | .hbm, ⟨6, _⟩ => ⟨S8192x8x512, .bf16⟩
  | .hbm, ⟨7, _⟩ => ⟨S8192x4096, .bf16⟩
  | .hbm, ⟨8, _⟩ => ⟨S11008x32x16, .f32⟩
  | .hbm, ⟨9, _⟩ => ⟨S11008x512, .f32⟩
  | .hbm, ⟨10, _⟩ => ⟨S11008x32x16, .f32⟩
  | .hbm, ⟨11, _⟩ => ⟨S11008x512, .f32⟩
  | .hbm, ⟨12, _⟩ => ⟨S_, .i32⟩
  | .hbm, ⟨13, _⟩ => ⟨S_, .i32⟩
  | .hbm, ⟨14, _⟩ => ⟨S11264x512, .i32⟩
  | .hbm, ⟨15, _⟩ => ⟨S_, .i32⟩
  | .hbm, ⟨16, _⟩ => ⟨S_, .f32⟩
  | .hbm, ⟨17, _⟩ => ⟨S11264x512, .f32⟩
  | .hbm, ⟨18, _⟩ => ⟨S_, .i32⟩
  | .hbm, ⟨19, _⟩ => ⟨S_, .f32⟩
  | .hbm, ⟨20, _⟩ => ⟨S11264x512, .f32⟩
  | .hbm, ⟨21, _⟩ => ⟨S8192x11264, .f32⟩
  | .hbm, ⟨22, _⟩ => ⟨S8192x11008, .f32⟩
  | .local _ .vmem, ⟨0, _⟩ => ⟨S256x4096, .bf16⟩
  | .local _ .vmem, ⟨1, _⟩ => ⟨S256x4096, .bf16⟩
  | .local _ .vmem, ⟨2, _⟩ => ⟨S1024x512, .i32⟩
  | .local _ .vmem, ⟨3, _⟩ => ⟨S1024x512, .i32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S256x1024, .f32⟩
  | .local _ .vmem, ⟨9, _⟩ => ⟨S256x1024, .f32⟩
  | .local _ .vmem, ⟨10, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  shapeCasts_S8192x4096_S8192x512x8 : S8192x4096.ShapeCasts S8192x512x8
  transposes_S8192x512x8_S8192x8x512_0_2_1 : S8192x512x8.Transposes [0, 2, 1] S8192x8x512
  shapeCasts_S8192x8x512_S8192x4096 : S8192x8x512.ShapeCasts S8192x4096
  bcast_S11008x32_S11008x32x16_0_1 : S11008x32.BroadcastsInDim S11008x32x16 (![0, 1] : Fin 2 → Fin S11008x32x16.rank)
  shapeCasts_S11008x32x16_S11008x512 : S11008x32x16.ShapeCasts S11008x512
  pads_S11008x512_S11264x512_02560_000 : S11008x512.Pads (![0, 0] : Fin 2 → Nat) ![256, 0] ![0, 0] S11264x512
  h_S_ : 0 < S_.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x4096_S1024x512_0_0 : ∀ a, (![0, 0] : Fin 2 → Nat) a + S1024x512.size a ≤ S1024x4096.size a
  packedbf16_S1024x4096_S1024x512_0_0 : (Rect.unit (s := S1024x4096) ![0, 0] S1024x512.size inb_S1024x4096_S1024x512_0_0).PackedRows (EltTy.packing .bf16)
  inb_S1024x4096_S1024x512_0_512 : ∀ a, (![0, 512] : Fin 2 → Nat) a + S1024x512.size a ≤ S1024x4096.size a
  packedbf16_S1024x4096_S1024x512_0_512 : (Rect.unit (s := S1024x4096) ![0, 512] S1024x512.size inb_S1024x4096_S1024x512_0_512).PackedRows (EltTy.packing .bf16)
  inb_S1024x4096_S1024x512_0_1024 : ∀ a, (![0, 1024] : Fin 2 → Nat) a + S1024x512.size a ≤ S1024x4096.size a
  packedbf16_S1024x4096_S1024x512_0_1024 : (Rect.unit (s := S1024x4096) ![0, 1024] S1024x512.size inb_S1024x4096_S1024x512_0_1024).PackedRows (EltTy.packing .bf16)
  inb_S1024x4096_S1024x512_0_1536 : ∀ a, (![0, 1536] : Fin 2 → Nat) a + S1024x512.size a ≤ S1024x4096.size a
  packedbf16_S1024x4096_S1024x512_0_1536 : (Rect.unit (s := S1024x4096) ![0, 1536] S1024x512.size inb_S1024x4096_S1024x512_0_1536).PackedRows (EltTy.packing .bf16)
  inb_S1024x4096_S1024x512_0_2048 : ∀ a, (![0, 2048] : Fin 2 → Nat) a + S1024x512.size a ≤ S1024x4096.size a
  packedbf16_S1024x4096_S1024x512_0_2048 : (Rect.unit (s := S1024x4096) ![0, 2048] S1024x512.size inb_S1024x4096_S1024x512_0_2048).PackedRows (EltTy.packing .bf16)
  inb_S1024x4096_S1024x512_0_2560 : ∀ a, (![0, 2560] : Fin 2 → Nat) a + S1024x512.size a ≤ S1024x4096.size a
  packedbf16_S1024x4096_S1024x512_0_2560 : (Rect.unit (s := S1024x4096) ![0, 2560] S1024x512.size inb_S1024x4096_S1024x512_0_2560).PackedRows (EltTy.packing .bf16)
  inb_S1024x4096_S1024x512_0_3072 : ∀ a, (![0, 3072] : Fin 2 → Nat) a + S1024x512.size a ≤ S1024x4096.size a
  packedbf16_S1024x4096_S1024x512_0_3072 : (Rect.unit (s := S1024x4096) ![0, 3072] S1024x512.size inb_S1024x4096_S1024x512_0_3072).PackedRows (EltTy.packing .bf16)
  inb_S1024x4096_S1024x512_0_3584 : ∀ a, (![0, 3584] : Fin 2 → Nat) a + S1024x512.size a ≤ S1024x4096.size a
  packedbf16_S1024x4096_S1024x512_0_3584 : (Rect.unit (s := S1024x4096) ![0, 3584] S1024x512.size inb_S1024x4096_S1024x512_0_3584).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  inb_S256x1024_S256x1024_0_0 : ∀ a, (![0, 0] : Fin 2 → Nat) a + S256x1024.size a ≤ S256x1024.size a
  h_S256x1024 : 0 < S256x1024.numel
  slices_S8192x11264_S8192x11008_0_0 : S8192x11264.Slices ![0, 0] S8192x11008
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S11264x512.size a
  hwx0_1 : ∀ i : grid0.Coords, EltTy.bits .i32 = 32 ∨ (Rect.block (s := S11264x512) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S11264x512.size a
  hwx0_2 : ∀ i : grid0.Coords, EltTy.bits .f32 = 32 ∨ (Rect.block (s := S11264x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S11264x512.size a
  hwx0_3 : ∀ i : grid0.Coords, EltTy.bits .f32 = 32 ∨ (Rect.block (s := S11264x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x11264.size a
  hwx0_4 : ∀ i : grid0.Coords, EltTy.bits .f32 = 32 ∨ (Rect.block (s := S8192x11264) S256x1024.size (cc0_transform_4 i) (hinb0_4 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x512 : Shape := ⟨2, ![11008, 512]⟩
abbrev S11008x32 : Shape := ⟨2, ![11008, 32]⟩
abbrev S8 : Shape := ⟨1, ![8]⟩
abbrev S_ : Shape := ⟨0, ![]⟩
abbrev S11008x512x1 : Shape := ⟨3, ![11008, 512, 1]⟩
abbrev S1x1x8 : Shape := ⟨3, ![1, 1, 8]⟩
abbrev S11008x512x8 : Shape := ⟨3, ![11008, 512, 8]⟩
abbrev S11008x4096 : Shape := ⟨2, ![11008, 4096]⟩
abbrev S11008x32x128 : Shape := ⟨3, ![11008, 32, 128]⟩
abbrev S11008x32x1 : Shape := ⟨3, ![11008, 32, 1]⟩
abbrev S4096x11008 : Shape := ⟨2, ![4096, 11008]⟩
abbrev S8192x11008 : Shape := ⟨2, ![8192, 11008]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x512, .i32⟩
  | .hbm, ⟨2, _⟩ => ⟨S11008x32, .f32⟩
  | .hbm, ⟨3, _⟩ => ⟨S11008x32, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S11008x512x1, .i32⟩
  | .hbm, ⟨9, _⟩ => ⟨S1x1x8, .i32⟩
  | .hbm, ⟨10, _⟩ => ⟨S11008x512x8, .i32⟩
  | .hbm, ⟨11, _⟩ => ⟨S11008x512x8, .i32⟩
  | .hbm, ⟨12, _⟩ => ⟨S11008x512x8, .i32⟩
  | .hbm, ⟨13, _⟩ => ⟨S_, .i32⟩
  | .hbm, ⟨14, _⟩ => ⟨S11008x512x8, .i32⟩
  | .hbm, ⟨15, _⟩ => ⟨S11008x512x8, .i32⟩
  | .hbm, ⟨16, _⟩ => ⟨S11008x4096, .i32⟩
  | .hbm, ⟨17, _⟩ => ⟨S11008x4096, .f32⟩
  | .hbm, ⟨18, _⟩ => ⟨S11008x32x128, .f32⟩
  | .hbm, ⟨19, _⟩ => ⟨S11008x32x1, .f32⟩
  | .hbm, ⟨20, _⟩ => ⟨S11008x32x128, .f32⟩
  | .hbm, ⟨21, _⟩ => ⟨S11008x32x128, .f32⟩
  | .hbm, ⟨22, _⟩ => ⟨S11008x32x1, .f32⟩
  | .hbm, ⟨23, _⟩ => ⟨S11008x32x128, .f32⟩
  | .hbm, ⟨24, _⟩ => ⟨S11008x32x128, .f32⟩
  | .hbm, ⟨25, _⟩ => ⟨S11008x4096, .f32⟩
  | .hbm, ⟨26, _⟩ => ⟨S4096x11008, .f32⟩
  | .hbm, ⟨27, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S11008x512_S11008x512x1_0_1 : S11008x512.BroadcastsInDim S11008x512x1 (![0, 1] : Fin 2 → Fin S11008x512x1.rank)
  bcast_S8_S1x1x8_2 : S8.BroadcastsInDim S1x1x8 (![2] : Fin 1 → Fin S1x1x8.rank)
  bcast_S11008x512x1_S11008x512x8_0_1_2 : S11008x512x1.BroadcastsInDim S11008x512x8 (![0, 1, 2] : Fin 3 → Fin S11008x512x8.rank)
  bcast_S1x1x8_S11008x512x8_0_1_2 : S1x1x8.BroadcastsInDim S11008x512x8 (![0, 1, 2] : Fin 3 → Fin S11008x512x8.rank)
  bcast_S_S11008x512x8 : S_.BroadcastsInDim S11008x512x8 (![] : Fin 0 → Fin S11008x512x8.rank)
  shapeCasts_S11008x512x8_S11008x4096 : S11008x512x8.ShapeCasts S11008x4096
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Spec.lean ====
/-
  The mathematics of the INT4 group-quantized linear layer, over the extended reals, with no program in sight.

  A packed 32-bit word q holds eight four-bit nibbles; nibble i is (q >> 4i) & 15 with the arithmetic shift
  (for the top nibble the sign bits shifted in are masked away again by the & 15). A weight is dequantized as
  (nibble − zero) · scale, zero and scale shared by the 128 consecutive input columns of a group. Input column
  k < 4096 of output row o lives in word k / 8 of that row, at nibble k % 8, in group k / 128; the layer's
  result at (t, o) is the sum over the 4096 input columns of x (t, k) times that weight.

  The second half is the one law the two programs differ by: a sum over the 4096 columns may be taken in the
  nibble-major order, position c = i · 512 + p holding column k = 8 p + i, because that map is a bijection of
  Fin 4096 and addition on the extended reals is commutative and associative — no finiteness is used anywhere.
-/
import Idealize.ShloMosaic.PureOps.Ideal
import Idealize.ShloMosaic.PureOps.Ideal.Laws
import Idealize.ShloMosaic.Lib.ValueIdx

noncomputable section

open scoped BigOperators

namespace Awq

open Idealize.ShloMosaic Idealize.ShloMosaic.ValueIdx

/-- The shift that brings nibble i of a packed word to the bottom: 4 i bits. -/
def shamt (i : Fin 8) : BitVec 32 := BitVec.ofNat 32 (4 * i.val)

theorem shamt_lt (i : Fin 8) : (shamt i).toNat < 32 := by
  fin_cases i <;> decide

/-- Nibble i of the packed word q, as a word: arithmetic shift right by 4 i, then the low four bits. -/
def nib (q : BitVec 32) (i : Fin 8) : BitVec 32 := IntOp.andi (q.sshiftRight' (shamt i)) 15#32

/-- One dequantized weight: (nibble − zero) · scale on the extended reals. -/
def deq (q : BitVec 32) (i : Fin 8) (z s : EReal) : EReal :=
  FloatOps.mulf (F := Ideal) (φ := .f32) (FloatOps.subf (F := Ideal) (φ := .f32) (FloatOps.sitofp (F := Ideal) .f32 (nib q i)) z) s

/-- The packed word, the nibble and the group of input column k. -/
def wordOf (k : Fin 4096) : Fin 512 := ⟨k.val / 8, by have := k.isLt; omega⟩
def nibOf (k : Fin 4096) : Fin 8 := ⟨k.val % 8, by omega⟩
def groupOf (k : Fin 4096) : Fin 32 := ⟨k.val / 128, by have := k.isLt; omega⟩

/-- The dequantized weight of output row o at input column k. -/
def weight (q : (⟨2, ![11008, 512]⟩ : Shape).Idx → BitVec 32) (s z : (⟨2, ![11008, 32]⟩ : Shape).Idx → EReal)
    (o : Fin 11008) (k : Fin 4096) : EReal :=
  deq (q (ix2 o (wordOf k))) (nibOf k) (z (ix2 o (groupOf k))) (s (ix2 o (groupOf k)))

/-- The layer: x · dequant(q, s, z)ᵀ, element (t, o) the sum over the 4096 input columns. -/
def linear (x : (⟨2, ![8192, 4096]⟩ : Shape).Idx → EReal) (q : (⟨2, ![11008, 512]⟩ : Shape).Idx → BitVec 32)
    (s z : (⟨2, ![11008, 32]⟩ : Shape).Idx → EReal) : (⟨2, ![8192, 11008]⟩ : Shape).Idx → EReal :=
  fun j => ∑ k : Fin 4096, x (ix2 (j 0) k) * weight q s z (j 1) k

/-! ## The nibble-major order of the columns -/

/-- Position c = i · 512 + p of the nibble-major order holds input column 8 p + i. -/
def unperm (c : Fin 4096) : Fin 4096 := ⟨(c.val % 512) * 8 + c.val / 512, by have := c.isLt; omega⟩
/-- Input column k = 8 p + i sits at position i · 512 + p. -/
def perm (k : Fin 4096) : Fin 4096 := ⟨(k.val % 8) * 512 + k.val / 8, by have := k.isLt; omega⟩

/-- The two are inverse bijections of the 4096 columns. -/
def permEquiv : Fin 4096 ≃ Fin 4096 where
  toFun := unperm
  invFun := perm
  left_inv c := Fin.ext (by have := c.isLt; show ((c.val % 512) * 8 + c.val / 512) % 8 * 512 + ((c.val % 512) * 8 + c.val / 512) / 8 = c.val; omega)
  right_inv k := Fin.ext (by have := k.isLt; show (((k.val % 8) * 512 + k.val / 8) % 512) * 8 + ((k.val % 8) * 512 + k.val / 8) / 512 = k.val; omega)

/-- A sum over the columns in nibble-major order is the sum over the columns. -/
theorem sum_unperm {M : Type*} [AddCommMonoid M] (f : Fin 4096 → M) : ∑ c : Fin 4096, f (unperm c) = ∑ k : Fin 4096, f k :=
  Equiv.sum_comp permEquiv f

/-- Position c of the nibble-major order: its word, nibble and group are those of the column it holds. -/
theorem wordOf_unperm (c : Fin 4096) : (wordOf (unperm c)).val = c.val % 512 := by
  have := c.isLt; show ((c.val % 512) * 8 + c.val / 512) / 8 = c.val % 512; omega
theorem nibOf_unperm (c : Fin 4096) : (nibOf (unperm c)).val = c.val / 512 := by
  have := c.isLt; show ((c.val % 512) * 8 + c.val / 512) % 8 = c.val / 512; omega
theorem groupOf_unperm (c : Fin 4096) : (groupOf (unperm c)).val = c.val % 512 / 16 := by
  have := c.isLt; show ((c.val % 512) * 8 + c.val / 512) / 128 = c.val % 512 / 16; omega

end Awq

end
-- ==== Proof.RefValue.lean ====
/-
  The reference program's result is the layer.

  The reference unpacks each packed word of the quantized matrix into its eight nibbles (shift right by 4 i, the
  shift amounts the numbers 0 … 7 times four, then the low four bits), flattens (word, nibble) into the 4096 input
  columns of a row, converts to the reals, cuts the row into 32 groups of 128 to subtract the group's zero and
  multiply by the group's scale, flattens again, transposes, and contracts with x over the 4096 columns.

  Read at an index, each of these steps is a function of one element of each operand, so the dequantized matrix at
  (o, k) is a function of the packed word at (o, k / 8), of k % 8, and of the zero and the scale at (o, k / 128):
  with j = 4096 o + k the flat position of (o, k), j / 4096 = o, j / 8 % 512 = k / 8, j % 8 = k % 8 and
  j / 128 % 32 = k / 128, because k < 4096. The shift amount 4 i is below 32, so the shift is the plain arithmetic
  shift. That function is the weight of the specification, and the contraction is the specification's sum.
-/
import proofs.«414449_j79680233276229_3_alg».proof.Proof.Gen.ReferenceIdeal.Read
import proofs.«414449_j79680233276229_3_alg».proof.Proof.Spec

noncomputable section

open scoped BigOperators

namespace Cert.ReferenceIdeal.RefValue

open Cert.ReferenceIdeal Cert.ReferenceIdeal.Read Idealize.ShloMosaic Idealize.ShloMosaic.ValueIdx

/-- The reference's shift amount at nibble i, the iota times four, is 4 i. -/
theorem shift_amount (i : Fin 8) : IntOp.muli (BitVec.ofNat 32 i.val) 4#32 = Awq.shamt i := by
  fin_cases i <;> decide

/-- An amount below the width: the shift is the arithmetic shift itself. -/
theorem shift_in_range (q : BitVec 32) (i : Fin 8) :
    IntOp.shrsi .host q (Awq.shamt i) = q.sshiftRight' (Awq.shamt i) := by
  unfold IntOp.shrsi
  rw [if_pos (Awq.shamt_lt i)]

/-- The unpacked tensor at (row o, word w, nibble n) is nibble n of the packed word at (o, w). -/
theorem nibble_read (x1 : (⟨S11008x512, .i32⟩ : BufTy).Contents (Elt Ideal))
    (o : Fin 11008) (w : Fin 512) (n : Fin 8) :
    val_main_v9 (F := Ideal) x1 (ix3 o w n) = Awq.nib (x1 (ix2 o w)) n := by
  rw [val_main_v9_apply, val_main_v7_apply, val_main_v8_apply, val_main_c_0_apply, val_main_v5_apply,
    val_main_v3_apply, val_main_v6_apply, val_main_v4_apply, val_main_v2_apply, val_main_v0_apply,
    val_main_v1_apply, val_main_c_apply]
  have e : idx_main_v3 (idx_main_v5 (ix3 o w n)) = ix2 o w :=
    funext fun a => match a with | ⟨0, _⟩ => rfl | ⟨1, _⟩ => rfl
  rw [e]
  show IntOp.andi (IntOp.shrsi .host (x1 (ix2 o w)) (IntOp.muli (BitVec.ofNat 32 n.val) 4#32)) 15#32 = _
  rw [shift_amount, shift_in_range]
  rfl

/-- Column k of row o, read through the flattening of (word, nibble): word k / 8, nibble k % 8. -/
theorem unpack_index (o : Fin 11008) (k : Fin 4096) :
    idx_main_v10 (ix2 o k) = ix3 o (Awq.wordOf k) (Awq.nibOf k) := by
  have ho : (o : Nat) < 11008 := o.isLt
  have hk : (k : Nat) < 4096 := k.isLt
  funext a
  apply Fin.ext
  match a with
  | ⟨0, _⟩ => show ((o : Nat) * 4096 + (k : Nat)) / 4096 = (o : Nat); omega
  | ⟨1, _⟩ => show ((o : Nat) * 4096 + (k : Nat)) / 8 % 512 = (k : Nat) / 8; omega
  | ⟨2, _⟩ => show ((o : Nat) * 4096 + (k : Nat)) % 8 = (k : Nat) % 8; omega

/-- Splitting a row into 32 groups of 128 and flattening again is the identity on (o, k). -/
theorem regroup_index (o : Fin 11008) (k : Fin 4096) :
    idx_main_v12 (idx_main_v19 (ix2 o k)) = ix2 o k := by
  have ho : (o : Nat) < 11008 := o.isLt
  have hk : (k : Nat) < 4096 := k.isLt
  funext a
  apply Fin.ext
  match a with
  | ⟨0, _⟩ =>
    show (((((o : Nat) * 4096 + (k : Nat)) / 4096) * 32 + ((o : Nat) * 4096 + (k : Nat)) / 128 % 32) * 128
      + ((o : Nat) * 4096 + (k : Nat)) % 128) / 4096 = (o : Nat)
    omega
  | ⟨1, _⟩ =>
    show (((((o : Nat) * 4096 + (k : Nat)) / 4096) * 32 + ((o : Nat) * 4096 + (k : Nat)) / 128 % 32) * 128
      + ((o : Nat) * 4096 + (k : Nat)) % 128) % 4096 = (k : Nat)
    omega

/-- The zero (and the scale) of column k of row o is the one of group k / 128. -/
theorem group_index (o : Fin 11008) (k : Fin 4096) :
    idx_main_v13 (idx_main_v14 (idx_main_v19 (ix2 o k))) = ix2 o (Awq.groupOf k) := by
  have ho : (o : Nat) < 11008 := o.isLt
  have hk : (k : Nat) < 4096 := k.isLt
  funext a
  apply Fin.ext
  match a with
  | ⟨0, _⟩ => show ((o : Nat) * 4096 + (k : Nat)) / 4096 = (o : Nat); omega
  | ⟨1, _⟩ => show ((o : Nat) * 4096 + (k : Nat)) / 128 % 32 = (k : Nat) / 128; omega

/-- The dequantized matrix the reference builds, at (o, k), is the weight of row o at column k. -/
theorem weight_read (x1 : (⟨S11008x512, .i32⟩ : BufTy).Contents (Elt Ideal))
    (x2 x3 : (⟨S11008x32, .f32⟩ : BufTy).Contents (Elt Ideal)) (o : Fin 11008) (k : Fin 4096) :
    val_main_v19 (F := Ideal) x1 x2 x3 (ix2 o k) = Awq.weight x1 x2 x3 o k := by
  rw [val_main_v19_apply, val_main_v18_apply, val_main_v15_apply, val_main_v17_apply, val_main_v16_apply,
    val_main_v14_apply, val_main_v13_apply, val_main_v12_apply, val_main_v11_apply, val_main_v10_apply]
  have eg : idx_main_v16 (idx_main_v17 (idx_main_v19 (ix2 o k))) = ix2 o (Awq.groupOf k) := group_index o k
  rw [eg, group_index, regroup_index, unpack_index, nibble_read]
  rfl

theorem ref_is_linear
    (x0 : (⟨Cert.ReferenceIdeal.S8192x4096, .f32⟩ : BufTy).Contents (Elt Ideal))
    (x1 : (⟨Cert.ReferenceIdeal.S11008x512, .i32⟩ : BufTy).Contents (Elt Ideal))
    (x2 x3 : (⟨Cert.ReferenceIdeal.S11008x32, .f32⟩ : BufTy).Contents (Elt Ideal)) :
    Cert.ReferenceIdeal.Read.val_main_v21 (F := Ideal) x0 x1 x2 x3 = Awq.linear x0 x1 x2 x3 := by
  funext j
  obtain ⟨t, o, rfl⟩ : ∃ (t : Fin 8192) (o : Fin 11008), j = ix2 t o := ⟨j 0, j 1, eq_ix2 j⟩
  rw [val_main_v21_apply]
  show _ = ∑ k : Fin 4096, x0 (ix2 t k) * Awq.weight x1 x2 x3 o k
  refine Finset.sum_congr rfl fun k _ => ?_
  rw [val_main_v20_apply]
  have el : lidx_main_v21 (ix2 t o) k = ix2 t k :=
    funext fun a => match a with | ⟨0, _⟩ => rfl | ⟨1, _⟩ => rfl
  have er : idx_main_v20 (ridx_main_v21 (ix2 t o) k) = ix2 o k :=
    funext fun a => match a with | ⟨0, _⟩ => rfl | ⟨1, _⟩ => rfl
  rw [el, er, weight_read]

end Cert.ReferenceIdeal.RefValue

end
-- ==== Proof.Pieces.lean ====
/-
  What one grid point of the quantized matmul leaves behind, as values.

  The grid walks the 11 column tiles of the padded result on its outer axis and the 32 row blocks of x on its inner
  axis. At the first row block of a column tile the body dequantizes the tile's 1024 x 512 block of packed words into
  a 1024 x 4096 scratch, one nibble at a time: nibble i of every word, minus the zero, times the scale, goes to
  columns i · 512 … i · 512 + 511. Read back as ONE function of the scratch index, the eight stored slabs are the
  dequantized tile in nibble-major column order (tile). At every point the body then multiplies the row block of x
  by the scratch's contents into the output block: at a first point by the tile just stored, at a later point by
  whatever the point before left there.
-/
import proofs.«414449_j79680233276229_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- One nibble's slab of the dequantized tile: every word of the block shifted right by sh bits, masked to four
    bits, converted, the zero subtracted, the scale multiplied, narrowed to the matmul's input format. -/
def slab (sh : BitVec 32) (q : Vec F S1024x512 .i32) (s z : Vec F S1024x512 .f32) : Vec F S1024x512 .bf16 :=
  truncf .bf16 (mulf (subf (sitofp .f32 (andi (shrsi (q : IVec S1024x512 32) (broadcast S1024x512 sh)) (broadcast S1024x512 15#32))) z) s) bitsLt_bf16_f32

theorem pay7_eq (q : Vec F S1024x512 .i32) (s z : Vec F S1024x512 .f32) : k0_pay7 q s z = slab 0#32 q s z := by
  unfold k0_pay7 k0_pay4 k0_pay5 k0_pay6 slab; simp only [shapeCast_self]
theorem pay8_eq (q : Vec F S1024x512 .i32) (s z : Vec F S1024x512 .f32) : k0_pay8 q s z = slab 4#32 q s z := by
  unfold k0_pay8 k0_pay4 k0_pay5 k0_pay6 slab; simp only [shapeCast_self]
theorem pay9_eq (q : Vec F S1024x512 .i32) (s z : Vec F S1024x512 .f32) : k0_pay9 q s z = slab 8#32 q s z := by
  unfold k0_pay9 k0_pay4 k0_pay5 k0_pay6 slab; simp only [shapeCast_self]
theorem pay10_eq (q : Vec F S1024x512 .i32) (s z : Vec F S1024x512 .f32) : k0_pay10 (k0_pay4 q) (k0_pay5 s) (k0_pay6 z) = slab 12#32 q s z := by
  unfold k0_pay10 k0_pay4 k0_pay5 k0_pay6 slab; simp only [shapeCast_self]
theorem pay11_eq (q : Vec F S1024x512 .i32) (s z : Vec F S1024x512 .f32) : k0_pay11 (k0_pay4 q) (k0_pay5 s) (k0_pay6 z) = slab 16#32 q s z := by
  unfold k0_pay11 k0_pay4 k0_pay5 k0_pay6 slab; simp only [shapeCast_self]
theorem pay12_eq (q : Vec F S1024x512 .i32) (s z : Vec F S1024x512 .f32) : k0_pay12 (k0_pay4 q) (k0_pay5 s) (k0_pay6 z) = slab 20#32 q s z := by
  unfold k0_pay12 k0_pay4 k0_pay5 k0_pay6 slab; simp only [shapeCast_self]
theorem pay13_eq (q : Vec F S1024x512 .i32) (s z : Vec F S1024x512 .f32) : k0_pay1 (k0_pay13 (k0_pay4 q) (k0_pay5 s) (k0_pay6 z)) = slab 24#32 q s z := by
  unfold k0_pay1 k0_pay13 k0_pay4 k0_pay5 k0_pay6 slab; simp only [shapeCast_self]
theorem pay2_eq (q : Vec F S1024x512 .i32) (s z : Vec F S1024x512 .f32) : k0_pay2 (k0_pay4 q) (k0_pay5 s) (k0_pay6 z) = slab 28#32 q s z := by
  unfold k0_pay2 k0_pay4 k0_pay5 k0_pay6 slab; simp only [shapeCast_self]

/-- Column c of the tile, inside its slab. -/
def subIdx (y : S1024x4096.Idx) : S1024x512.Idx := fun a => match a with
  | ⟨0, _⟩ => ⟨(y 0).val, (y 0).isLt⟩
  | ⟨1, _⟩ => ⟨(y 1).val % 512, Nat.mod_lt _ (by decide)⟩

/-- The dequantized tile in nibble-major column order: column c = i · 512 + p is nibble i of word p. -/
def tile (q : Vec F S1024x512 .i32) (s z : Vec F S1024x512 .f32) : Vec F S1024x4096 .bf16 :=
  fun y => slab (BitVec.ofNat 32 (4 * ((y 1).val / 512))) q s z (subIdx y)

theorem tile_at (q : Vec F S1024x512 .i32) (s z : Vec F S1024x512 .f32) (i : Nat) (x : S1024x512.Idx) (y : S1024x4096.Idx)
    (h0 : (y 0).val = (x 0).val) (h1 : (y 1).val = i * 512 + (x 1).val) :
    tile q s z y = slab (BitVec.ofNat 32 (4 * i)) q s z x := by
  have hx : (x 1).val < 512 := (x 1).isLt
  have e1 : (y 1).val / 512 = i := by omega
  have e2 : subIdx y = x := funext fun a => Fin.ext (by
    match a with
    | ⟨0, _⟩ => exact h0
    | ⟨1, _⟩ => show (y 1).val % 512 = (x 1).val; omega)
  unfold tile
  rw [e1, e2]

/-- The eight slabs the first point of a column tile stores ARE the tile: slab i lands at columns i · 512 … i · 512 + 511. -/
theorem scratch_A (c : Dev nD) (i : grid0.Coords) (a2 : Memref sig .tc .vmem S256x4096 .bf16) (h2 : a2.IsWhole) (a3 : Memref sig .tc .vmem S1024x512 .i32) (h3 : a3.IsWhole) (a4 : Memref sig .tc .vmem S1024x512 .f32) (h4 : a4.IsWhole) (a5 : Memref sig .tc .vmem S1024x512 .f32) (h5 : a5.IsWhole) (a6 : Memref sig .tc .vmem S256x1024 .f32) (h6 : a6.IsWhole) (a7 : Memref sig .tc .vmem S1024x4096 .bf16) (h7 : a7.IsWhole) (hc : cond0_0 i)
    (x0 : Vec F S256x4096 .bf16) (x1 : Vec F S1024x512 .i32) (x2 : Vec F S1024x512 .f32) (x3 : Vec F S1024x512 .f32) :
    sout0_A_0 c i a2 h2 a3 h3 a4 h4 a5 h5 a6 h6 a7 h7 hc x0 x1 x2 x3 = tile x1 x2 x3 := by
  unfold sout0_A_0
  rw [View.read_writes_eq_canon _ _ _ (scover0_A_0 c i a2 h2 a3 h3 a4 h4 a5 h5 a6 h6 a7 h7 hc x0 x1 x2 x3)]
  funext y
  refine View.canon_apply_of_pieces (tile x1 x2 x3) _ ?_ y (scover0_A_0 c i a2 h2 a3 h3 a4 h4 a5 h5 a6 h6 a7 h7 hc x0 x1 x2 x3 y)
  unfold kernelRun0_A
  dsimp only
  sl_unfold_words
  intro p hp
  simp only [List.mem_cons, List.mem_nil_iff, or_false] at hp
  rcases hp with rfl | rfl | rfl | rfl | rfl | rfl | rfl | rfl
  all_goals intro x
  all_goals dsimp only
  all_goals simp only [View.readAt_eq_ld, h3.read_unread, h4.read_unread, h5.read_unread, View.ld_unit_zero (S := S1024x512) hz]
  · rw [pay2_eq]; exact (tile_at x1 x2 x3 7 x _ (by show 0 + 1 * (x 0).val = (x 0).val; omega) (by show 3584 + 1 * (x 1).val = 7 * 512 + (x 1).val; omega)).symm
  · rw [pay13_eq]; exact (tile_at x1 x2 x3 6 x _ (by show 0 + 1 * (x 0).val = (x 0).val; omega) (by show 3072 + 1 * (x 1).val = 6 * 512 + (x 1).val; omega)).symm
  · rw [pay12_eq]; exact (tile_at x1 x2 x3 5 x _ (by show 0 + 1 * (x 0).val = (x 0).val; omega) (by show 2560 + 1 * (x 1).val = 5 * 512 + (x 1).val; omega)).symm
  · rw [pay11_eq]; exact (tile_at x1 x2 x3 4 x _ (by show 0 + 1 * (x 0).val = (x 0).val; omega) (by show 2048 + 1 * (x 1).val = 4 * 512 + (x 1).val; omega)).symm
  · rw [pay10_eq]; exact (tile_at x1 x2 x3 3 x _ (by show 0 + 1 * (x 0).val = (x 0).val; omega) (by show 1536 + 1 * (x 1).val = 3 * 512 + (x 1).val; omega)).symm
  · rw [pay9_eq]; exact (tile_at x1 x2 x3 2 x _ (by show 0 + 1 * (x 0).val = (x 0).val; omega) (by show 1024 + 1 * (x 1).val = 2 * 512 + (x 1).val; omega)).symm
  · rw [pay8_eq]; exact (tile_at x1 x2 x3 1 x _ (by show 0 + 1 * (x 0).val = (x 0).val; omega) (by show 512 + 1 * (x 1).val = 1 * 512 + (x 1).val; omega)).symm
  · rw [pay7_eq]; exact (tile_at x1 x2 x3 0 x _ (by show 0 + 1 * (x 0).val = (x 0).val; omega) (by show 0 + 1 * (x 1).val = 0 * 512 + (x 1).val; omega)).symm

/-- At a later point of a column tile the body multiplies the row block of x by the tile it finds in the scratch. -/
theorem out_B (c : Dev nD) (i : grid0.Coords) (a2 : Memref sig .tc .vmem S256x4096 .bf16) (h2 : a2.IsWhole) (a3 : Memref sig .tc .vmem S1024x512 .i32) (h3 : a3.IsWhole) (a4 : Memref sig .tc .vmem S1024x512 .f32) (h4 : a4.IsWhole) (a5 : Memref sig .tc .vmem S1024x512 .f32) (h5 : a5.IsWhole) (a6 : Memref sig .tc .vmem S256x1024 .f32) (h6 : a6.IsWhole) (a7 : Memref sig .tc .vmem S1024x4096 .bf16) (h7 : a7.IsWhole) (hc : ¬cond0_0 i)
    (x0 : Vec F S256x4096 .bf16) (x1 : Vec F S1024x512 .i32) (x2 : Vec F S1024x512 .f32) (x3 : Vec F S1024x512 .f32) (xs0 : Vec F S1024x4096 .bf16) :
    out0_B_4 c i a2 h2 a3 h3 a4 h4 a5 h5 a6 h6 a7 h7 hc x0 x1 x2 x3 xs0 = k0_pay3 x0 xs0 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  sl_unfold_words
  rw [View.canon_unit_zero hz]
  simp only [View.readAt_eq_ld, h2.read_unread, h7.read_unread, View.ld_unit_zero (S := S256x4096) hz, View.ld_unit_zero (S := S1024x4096) hz]

/-- At the first point of a column tile it multiplies by the tile it has just stored. -/
theorem out_A (c : Dev nD) (i : grid0.Coords) (a2 : Memref sig .tc .vmem S256x4096 .bf16) (h2 : a2.IsWhole) (a3 : Memref sig .tc .vmem S1024x512 .i32) (h3 : a3.IsWhole) (a4 : Memref sig .tc .vmem S1024x512 .f32) (h4 : a4.IsWhole) (a5 : Memref sig .tc .vmem S1024x512 .f32) (h5 : a5.IsWhole) (a6 : Memref sig .tc .vmem S256x1024 .f32) (h6 : a6.IsWhole) (a7 : Memref sig .tc .vmem S1024x4096 .bf16) (h7 : a7.IsWhole) (hc : cond0_0 i)
    (x0 : Vec F S256x4096 .bf16) (x1 : Vec F S1024x512 .i32) (x2 : Vec F S1024x512 .f32) (x3 : Vec F S1024x512 .f32) :
    out0_A_4 c i a2 h2 a3 h3 a4 h4 a5 h5 a6 h6 a7 h7 hc x0 x1 x2 x3 = k0_pay3 x0 (tile x1 x2 x3) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz, View.readCov_eq_canon']
  simp only [View.readAt_eq_ld, h2.read_unread, h3.read_unread, h4.read_unread, h5.read_unread, View.ld_unit_zero (S := S256x4096) hz, View.ld_unit_zero (S := S1024x512) hz]
  show k0_pay3 x0 (View.ld (View.canon _) (Rect.unit ![0, 0] S1024x4096.size _)) = _
  rw [View.ld_unit_zero (S := S1024x4096) hz]
  congr 1
  funext y
  refine View.canon_apply_of_pieces (tile x1 x2 x3) _ ?_ y (View.cover_of_tiledL (s := S1024x4096) _ S1024x512.size (by sl_kernel_rfl) y)
  intro p hp
  simp only [List.mem_cons, List.mem_nil_iff, or_false] at hp
  rcases hp with rfl | rfl | rfl | rfl | rfl | rfl | rfl | rfl
  all_goals intro x
  all_goals dsimp only
  · rw [pay2_eq]; exact (tile_at x1 x2 x3 7 x _ (by show 0 + 1 * (x 0).val = (x 0).val; omega) (by show 3584 + 1 * (x 1).val = 7 * 512 + (x 1).val; omega)).symm
  · rw [pay13_eq]; exact (tile_at x1 x2 x3 6 x _ (by show 0 + 1 * (x 0).val = (x 0).val; omega) (by show 3072 + 1 * (x 1).val = 6 * 512 + (x 1).val; omega)).symm
  · rw [pay12_eq]; exact (tile_at x1 x2 x3 5 x _ (by show 0 + 1 * (x 0).val = (x 0).val; omega) (by show 2560 + 1 * (x 1).val = 5 * 512 + (x 1).val; omega)).symm
  · rw [pay11_eq]; exact (tile_at x1 x2 x3 4 x _ (by show 0 + 1 * (x 0).val = (x 0).val; omega) (by show 2048 + 1 * (x 1).val = 4 * 512 + (x 1).val; omega)).symm
  · rw [pay10_eq]; exact (tile_at x1 x2 x3 3 x _ (by show 0 + 1 * (x 0).val = (x 0).val; omega) (by show 1536 + 1 * (x 1).val = 3 * 512 + (x 1).val; omega)).symm
  · rw [pay9_eq]; exact (tile_at x1 x2 x3 2 x _ (by show 0 + 1 * (x 0).val = (x 0).val; omega) (by show 1024 + 1 * (x 1).val = 2 * 512 + (x 1).val; omega)).symm
  · rw [pay8_eq]; exact (tile_at x1 x2 x3 1 x _ (by show 0 + 1 * (x 0).val = (x 0).val; omega) (by show 512 + 1 * (x 1).val = 1 * 512 + (x 1).val; omega)).symm
  · rw [pay7_eq]; exact (tile_at x1 x2 x3 0 x _ (by show 0 + 1 * (x 0).val = (x 0).val; omega) (by show 0 + 1 * (x 1).val = 0 * 512 + (x 1).val; omega)).symm

end Cert.KernelIdeal.Tile
end
-- ==== Proof.Blocks.lean ====
/-
  Where each grid point's blocks sit in the arrays the pallas_call's windows read.

  Point t of the 11 x 32 grid is row block t % 32 of column tile t / 32: its x block is rows (t % 32) · 256 … + 255
  of the (column-permuted) x, and its three column-tile blocks are rows (t / 32) · 1024 … + 1023 of the padded
  packed words, scales and zeros. So two points of one column tile read the same three blocks.
-/
import proofs.«414449_j79680233276229_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps over the grid: point t is row block t % 32 of column tile t / 32. -/
theorem idx_facts : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val / 32 ∧ win0_2.index t (1 : Fin 2) = 0
    ∧ win0_3.index t (0 : Fin 2) = t.val / 32 ∧ win0_3.index t (1 : Fin 2) = 0
    ∧ win0_4.index t (0 : Fin 2) = t.val % 32 ∧ win0_4.index t (1 : Fin 2) = t.val / 32 :=
  (by decide +kernel : ∀ t : Fin grid0.N, _)

theorem lt_N (t : Fin cfg0.N) : t.val < 352 := lt_of_lt_of_eq t.isLt (show cfg0.N = 352 from N_0)

/-- The four arrays the windows read, as the region finds them, at their literal types. -/
abbrev xarr (c : Dev nD) : Vec F S8192x4096 .bf16 := V m c main_v3
abbrev qarr (c : Dev nD) : Vec F S11264x512 .i32 := V m c main_v8
abbrev sarr (c : Dev nD) : Vec F S11264x512 .f32 := V m c main_v9
abbrev zarr (c : Dev nD) : Vec F S11264x512 .f32 := V m c main_v10

/-- The blocks a point reads, at their literal types. -/
abbrev xblk (c : Dev nD) (t : Fin cfg0.N) : Vec F S256x4096 .bf16 := iblk m c 0 t
abbrev qblk (c : Dev nD) (t : Fin cfg0.N) : Vec F S1024x512 .i32 := iblk m c 1 t
abbrev sblk (c : Dev nD) (t : Fin cfg0.N) : Vec F S1024x512 .f32 := iblk m c 2 t
abbrev zblk (c : Dev nD) (t : Fin cfg0.N) : Vec F S1024x512 .f32 := iblk m c 3 t

/-- Row r of the x block at point t is row (t % 32) · 256 + r of x. -/
theorem xblk_at (c : Dev nD) (t : Fin cfg0.N) (y : S256x4096.Idx) :
    xblk m c t y = xarr m c (ix2 ⟨(t.val % 32) * 256 + (y 0).val, by have h0 : (y 0).val < 256 := (y 0).isLt; show _ < 8192; omega⟩ ⟨(y 1).val, (y 1).isLt⟩) := by
  obtain ⟨e00, e01, -⟩ := idx_facts t
  unfold xblk xarr iblk
  rw [View.read_apply]
  show V m c main_v3 _ = V m c main_v3 _
  congr 1
  funext a; apply Fin.ext
  match a with
  | ⟨0, _⟩ => show win0_0.index t 0 * 256 + 1 * (y 0).val = (t.val % 32) * 256 + (y 0).val; rw [e00]; omega
  | ⟨1, _⟩ => show win0_0.index t 1 * 4096 + 1 * (y 1).val = (y 1).val; rw [e01]; omega

/-- Row r of a column-tile block at point t is row (t / 32) · 1024 + r of the padded array (the tile number as a
    free parameter, so that two points of one tile read the same term). -/
theorem qblk_at (c : Dev nD) (t : Fin cfg0.N) (y : S1024x512.Idx) (n : Nat) (hn : t.val / 32 = n)
    (hb : n * 1024 + (y 0).val < 11264) :
    qblk m c t y = qarr m c (ix2 ⟨n * 1024 + (y 0).val, hb⟩ ⟨(y 1).val, (y 1).isLt⟩) := by
  obtain ⟨-, -, e10, e11, -⟩ := idx_facts t
  unfold qblk qarr iblk
  rw [View.read_apply]
  show V m c main_v8 _ = V m c main_v8 _
  congr 1
  funext a; apply Fin.ext
  match a with
  | ⟨0, _⟩ => show win0_1.index t 0 * 1024 + 1 * (y 0).val = n * 1024 + (y 0).val; rw [e10, hn]; omega
  | ⟨1, _⟩ => show win0_1.index t 1 * 512 + 1 * (y 1).val = (y 1).val; rw [e11]; omega

theorem sblk_at (c : Dev nD) (t : Fin cfg0.N) (y : S1024x512.Idx) (n : Nat) (hn : t.val / 32 = n)
    (hb : n * 1024 + (y 0).val < 11264) :
    sblk m c t y = sarr m c (ix2 ⟨n * 1024 + (y 0).val, hb⟩ ⟨(y 1).val, (y 1).isLt⟩) := by
  obtain ⟨-, -, -, -, e20, e21, -⟩ := idx_facts t
  unfold sblk sarr iblk
  rw [View.read_apply]
  show V m c main_v9 _ = V m c main_v9 _
  congr 1
  funext a; apply Fin.ext
  match a with
  | ⟨0, _⟩ => show win0_2.index t 0 * 1024 + 1 * (y 0).val = n * 1024 + (y 0).val; rw [e20, hn]; omega
  | ⟨1, _⟩ => show win0_2.index t 1 * 512 + 1 * (y 1).val = (y 1).val; rw [e21]; omega

theorem zblk_at (c : Dev nD) (t : Fin cfg0.N) (y : S1024x512.Idx) (n : Nat) (hn : t.val / 32 = n)
    (hb : n * 1024 + (y 0).val < 11264) :
    zblk m c t y = zarr m c (ix2 ⟨n * 1024 + (y 0).val, hb⟩ ⟨(y 1).val, (y 1).isLt⟩) := by
  obtain ⟨-, -, -, -, -, -, e30, e31, -⟩ := idx_facts t
  unfold zblk zarr iblk
  rw [View.read_apply]
  show V m c main_v10 _ = V m c main_v10 _
  congr 1
  funext a; apply Fin.ext
  match a with
  | ⟨0, _⟩ => show win0_3.index t 0 * 1024 + 1 * (y 0).val = n * 1024 + (y 0).val; rw [e30, hn]; omega
  | ⟨1, _⟩ => show win0_3.index t 1 * 512 + 1 * (y 1).val = (y 1).val; rw [e31]; omega

theorem row_lt (t : Fin cfg0.N) (y : S1024x512.Idx) : t.val / 32 * 1024 + (y 0).val < 11264 := by
  have := lt_N t; have h0 : (y 0).val < 1024 := (y 0).isLt; omega

/-- Two points of one column tile read the same three blocks. -/
theorem qblk_stable (c : Dev nD) (t t' : Fin cfg0.N) (h : t'.val / 32 = t.val / 32) : qblk m c t' = qblk m c t :=
  funext fun y => (qblk_at m c t' y (t.val / 32) h (row_lt t y)).trans (qblk_at m c t y (t.val / 32) rfl (row_lt t y)).symm
theorem sblk_stable (c : Dev nD) (t t' : Fin cfg0.N) (h : t'.val / 32 = t.val / 32) : sblk m c t' = sblk m c t :=
  funext fun y => (sblk_at m c t' y (t.val / 32) h (row_lt t y)).trans (sblk_at m c t y (t.val / 32) rfl (row_lt t y)).symm
theorem zblk_stable (c : Dev nD) (t t' : Fin cfg0.N) (h : t'.val / 32 = t.val / 32) : zblk m c t' = zblk m c t :=
  funext fun y => (zblk_at m c t' y (t.val / 32) h (row_lt t y)).trans (zblk_at m c t y (t.val / 32) rfl (row_lt t y)).symm

end Cert.KernelIdeal.Blocks
end
-- ==== Proof.Inv.lean ====
/-
  What the scratch and the output block hold after EVERY grid point.

  The first row block of a column tile stores the tile's dequantized weights; the 31 later row blocks of that tile
  leave the scratch alone and read the same three column blocks, so by induction on the point the scratch always
  holds the dequantized tile of the point's own column tile, and the output block the product of the point's x
  block with it.
-/
import proofs.«414449_j79680233276229_3_alg».proof.Proof.Pieces
import proofs.«414449_j79680233276229_3_alg».proof.Proof.Blocks
import proofs.«414449_j79680233276229_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Inv

open Cert.KernelIdeal Cert.KernelIdeal.Gen Cert.KernelIdeal.Tile Cert.KernelIdeal.Blocks

variable {F : FTy → Type} [FloatOps F]
variable (m : (ℓ : Loc nD τ sig) → Buf (Elt F) ℓ)

/-- The dequantized tile of point t's column tile. -/
abbrev wtile (c : Dev nD) (t : Fin cfg0.N) : Vec F S1024x4096 .bf16 := tile (qblk m c t) (sblk m c t) (zblk m c t)

theorem wtile_stable (c : Dev nD) (t t' : Fin cfg0.N) (h : t'.val / 32 = t.val / 32) : wtile m c t' = wtile m c t := by
  unfold wtile
  rw [qblk_stable m c t t' h, sblk_stable m c t t' h, zblk_stable m c t t' h]

/-- A first point of a column tile leaves the tile in the scratch and the product with it in the output block. -/
theorem at_first (c : Dev nD) (t : Fin cfg0.N) (h0 : t.val % 32 = 0) :
    outsAt0 m c t.val t.isLt = (k0_pay3 (xblk m c t) (wtile m c t), wtile m c t) :=
  (outsAt0_A m c t h0).trans (congrArg₂ Prod.mk
    (out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (qblk m c t) (sblk m c t) (zblk m c t))
    (scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (qblk m c t) (sblk m c t) (zblk m c t)))

/-- A later point leaves the scratch as it found it and the product with that in the output block. -/
theorem at_later (c : Dev nD) (t : Fin cfg0.N) (h0 : ¬t.val % 32 = 0) :
    outsAt0 m c t.val t.isLt
      = (k0_pay3 (xblk m c t) (outsAt0 m c (t.val - 1) (Nat.lt_of_le_of_lt (Nat.sub_le _ _) t.isLt)).2,
         (outsAt0 m c (t.val - 1) (Nat.lt_of_le_of_lt (Nat.sub_le _ _) t.isLt)).2) :=
  (outsAt0_B m c t h0).trans (congrArg₂ Prod.mk
    (out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (qblk m c t) (sblk m c t) (zblk m c t)
      (outsAt0 m c (t.val - 1) (Nat.lt_of_le_of_lt (Nat.sub_le _ _) t.isLt)).2)
    rfl)

/-- After EVERY point the scratch holds the dequantized tile of that point's column tile, and the output block the
    product of the point's x block with it: by induction on the point, the tile carried unchanged across the later
    points of its column tile. -/
theorem outsAt_eq (c : Dev nD) : ∀ (n : ℕ) (h : n < cfg0.N),
    outsAt0 m c n h = (k0_pay3 (xblk m c ⟨n, h⟩) (wtile m c ⟨n, h⟩), wtile m c ⟨n, h⟩)
  | 0, h => at_first m c ⟨0, h⟩ rfl
  | n + 1, h => by
    by_cases h0 : (n + 1) % 32 = 0
    · exact at_first m c ⟨n + 1, h⟩ h0
    · rw [at_later m c ⟨n + 1, h⟩ h0]
      have ih := outsAt_eq c n (Nat.lt_of_succ_lt h)
      have hs : (outsAt0 m c n (Nat.lt_of_succ_lt h)).2 = wtile m c ⟨n + 1, h⟩ := by
        rw [ih]
        exact (wtile_stable m c ⟨n, Nat.lt_of_succ_lt h⟩ ⟨n + 1, h⟩ (by show (n + 1) / 32 = n / 32; omega)).symm
      show (k0_pay3 (xblk m c ⟨n + 1, h⟩) (outsAt0 m c n _).2, (outsAt0 m c n _).2) = _
      rw [hs]

end Cert.KernelIdeal.Inv
end
-- ==== Proof.Elem.lean ====
/-
  The kernel body's two values read at ONE element, at the ideal instance (extended reals).

  The product block: a matmul into the zero accumulator that contracts axis 1 of both operands is, at output
  element (r, o), the plain sum over the 4096 contraction positions of x (r, c) times w (o, c).

  The dequantized tile: its column c = i · 512 + p of row o is nibble i of word p of that row, minus the zero,
  times the scale — the narrowing to the matmul's input format is the identity on extended reals, and the vector
  unit's arithmetic shift by 4 i < 32 bits is the plain arithmetic shift.
-/
import proofs.«414449_j79680233276229_3_alg».proof.Proof.Pieces
import proofs.«414449_j79680233276229_3_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Elem

open Cert.KernelIdeal Cert.KernelIdeal.Gen Cert.KernelIdeal.Tile Idealize.ShloMosaic Idealize.ShloMosaic.ValueIdx
open scoped BigOperators

/-! ## The matmul at an element -/

/-- The left operand's kept axis reads the output's row coordinate. -/
theorem lhs_0 (j : S256x1024.Idx) (k : dot_S256x4096_S1024x4096_S256x1024_1_1_0_0_n_n.contr.Idx) :
    (dot_S256x4096_S1024x4096_S256x1024_1_1_0_0_n_n.lhsIdx j k 0).val = (j 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
/-- The left operand's contracted axis reads the contraction coordinate. -/
theorem lhs_1 (j : S256x1024.Idx) (k : dot_S256x4096_S1024x4096_S256x1024_1_1_0_0_n_n.contr.Idx) :
    (dot_S256x4096_S1024x4096_S256x1024_1_1_0_0_n_n.lhsIdx j k 1).val = (k ⟨0, by decide⟩).val :=
  dot_S256x4096_S1024x4096_S256x1024_1_1_0_0_n_n.lhsIdx_val_of_single rfl j k
/-- The right operand's kept axis reads the output's column coordinate. -/
theorem rhs_0 (j : S256x1024.Idx) (k : dot_S256x4096_S1024x4096_S256x1024_1_1_0_0_n_n.contr.Idx) :
    (dot_S256x4096_S1024x4096_S256x1024_1_1_0_0_n_n.rhsIdx j k 0).val = (j 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
/-- The right operand's contracted axis reads the contraction coordinate. -/
theorem rhs_1 (j : S256x1024.Idx) (k : dot_S256x4096_S1024x4096_S256x1024_1_1_0_0_n_n.contr.Idx) :
    (dot_S256x4096_S1024x4096_S256x1024_1_1_0_0_n_n.rhsIdx j k 1).val = (k ⟨0, by decide⟩).val :=
  dot_S256x4096_S1024x4096_S256x1024_1_1_0_0_n_n.rhsIdx_val_of_single rfl j k

/-- the product at an element: row r of the x block against row o of the scratch -/
theorem pay3_at (x0 : Vec Ideal S256x4096 .bf16) (w : Vec Ideal S1024x4096 .bf16) (r : Fin 256) (o : Fin 1024) :
    k0_pay3 (F := Ideal) x0 w (ix2 r o) = ∑ cc : Fin 4096, x0 (ix2 r cc) * w (ix2 o cc) := by
  unfold k0_pay3
  simp only [shapeCast_self, matmul]
  rw [Ideal.matmul_constant_zero_apply, ← Equiv.sum_comp (ValueIdx.contrEquiv1 dot_S256x4096_S1024x4096_S256x1024_1_1_0_0_n_n 4096 rfl rfl).symm]
  refine Finset.sum_congr rfl fun k _ => ?_
  have hk := ValueIdx.contrEquiv1_symm_val dot_S256x4096_S1024x4096_S256x1024_1_1_0_0_n_n 4096 rfl rfl k
  have el : dot_S256x4096_S1024x4096_S256x1024_1_1_0_0_n_n.lhsIdx (ix2 r o) ((ValueIdx.contrEquiv1 dot_S256x4096_S1024x4096_S256x1024_1_1_0_0_n_n 4096 rfl rfl).symm k) = ix2 r k := funext fun a => Fin.ext (by
    match a with
    | ⟨0, _⟩ => exact lhs_0 _ _
    | ⟨1, _⟩ => exact (lhs_1 _ _).trans hk)
  have er : dot_S256x4096_S1024x4096_S256x1024_1_1_0_0_n_n.rhsIdx (ix2 r o) ((ValueIdx.contrEquiv1 dot_S256x4096_S1024x4096_S256x1024_1_1_0_0_n_n 4096 rfl rfl).symm k) = ix2 o k := funext fun a => Fin.ext (by
    match a with
    | ⟨0, _⟩ => exact rhs_0 _ _
    | ⟨1, _⟩ => exact (rhs_1 _ _).trans hk)
  rw [el, er]

/-! ## The dequantized tile at an element -/

/-- Column cc of the tile sits at word cc mod 512 of its slab. -/
theorem subIdx_ix2 (o : Fin 1024) (cc : Fin 4096) :
    subIdx (ix2 o cc) = ix2 o (⟨cc.val % 512, Nat.mod_lt _ (by decide)⟩ : Fin 512) :=
  funext fun a => Fin.ext (by
    match a with
    | ⟨0, _⟩ => rfl
    | ⟨1, _⟩ => rfl)

/-- the dequantized tile at an element: column cc = i*512 + p is nibble i of word p -/
theorem tile_elem (q : Vec Ideal S1024x512 .i32) (s z : Vec Ideal S1024x512 .f32) (o : Fin 1024) (cc : Fin 4096) :
    tile (F := Ideal) q s z (ix2 o cc)
      = Awq.deq (q (ix2 o ⟨cc.val % 512, Nat.mod_lt _ (by decide)⟩)) ⟨cc.val / 512, by have := cc.isLt; omega⟩
          (z (ix2 o ⟨cc.val % 512, Nat.mod_lt _ (by decide)⟩)) (s (ix2 o ⟨cc.val % 512, Nat.mod_lt _ (by decide)⟩)) := by
  have hlt : cc.val / 512 < 8 := by have := cc.isLt; omega
  have hsh : (BitVec.ofNat 32 (4 * (cc.val / 512))).toNat < 32 := Awq.shamt_lt ⟨cc.val / 512, hlt⟩
  unfold tile
  rw [subIdx_ix2]
  unfold slab Awq.deq Awq.nib
  show FloatOps.mulf (F := Ideal) (φ := .f32) (FloatOps.subf (F := Ideal) (φ := .f32) (FloatOps.sitofp (F := Ideal) .f32
      (IntOp.andi (IntOp.shrsi .vector (q (ix2 o ⟨cc.val % 512, Nat.mod_lt _ (by decide)⟩)) (BitVec.ofNat 32 (4 * (cc.val / 512)))) 15#32))
      (z (ix2 o ⟨cc.val % 512, Nat.mod_lt _ (by decide)⟩))) (s (ix2 o ⟨cc.val % 512, Nat.mod_lt _ (by decide)⟩)) = _
  unfold IntOp.shrsi
  rw [if_pos hsh]
  rfl

end Cert.KernelIdeal.Elem
end
-- ==== Proof.Padded.lean ====
/-
  The padded result of the quantized matmul as ONE function of the four arrays the pallas_call reads: element
  (t, o) is the sum over the 4096 nibble-major positions c of x at (t, c) times the weight dequantized from word
  c % 512 of row o at nibble c / 512 (zero and scale read at the same word position: they arrive expanded to the
  packed width).
-/
import proofs.«414449_j79680233276229_3_alg».proof.KernelIdeal
import proofs.«414449_j79680233276229_3_alg».proof.Proof.Spec

noncomputable section

open scoped BigOperators

namespace Cert.KernelIdeal.Flush

open Cert.KernelIdeal Idealize.ShloMosaic Idealize.ShloMosaic.ValueIdx

def padded (xa : Vec Ideal S8192x4096 .bf16) (qa : Vec Ideal S11264x512 .i32) (sa za : Vec Ideal S11264x512 .f32) :
    Vec Ideal S8192x11264 .f32 :=
  fun j => ∑ cc : Fin 4096, xa (ix2 (j 0) cc)
    * Awq.deq (qa (ix2 (j 1) ⟨cc.val % 512, Nat.mod_lt _ (by decide)⟩)) ⟨cc.val / 512, by have := cc.isLt; omega⟩
        (za (ix2 (j 1) ⟨cc.val % 512, Nat.mod_lt _ (by decide)⟩)) (sa (ix2 (j 1) ⟨cc.val % 512, Nat.mod_lt _ (by decide)⟩))

end Cert.KernelIdeal.Flush

end
-- ==== Proof.Flush.lean ====
/-
  The padded result array after the pallas_call.

  What a grid point writes back is its 256 x 1024 block of ONE function G of the four arrays the windows read:
  the product of the point's x rows with the dequantized tile of its column tile, element by element the sum over
  the 4096 nibble-major positions. The 11 x 32 output blocks tile the 8192 x 11264 array, so after the last
  write-back the array holds G.
-/
import proofs.«414449_j79680233276229_3_alg».proof.Proof.Inv
import proofs.«414449_j79680233276229_3_alg».proof.Proof.Elem
import proofs.«414449_j79680233276229_3_alg».proof.Proof.Padded
import proofs.«414449_j79680233276229_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

open scoped BigOperators

namespace Cert.KernelIdeal.Flush

open Cert.KernelIdeal Cert.KernelIdeal.Gen Cert.KernelIdeal.Tile Cert.KernelIdeal.Blocks Cert.KernelIdeal.Inv Cert.KernelIdeal.Elem
open Idealize.ShloMosaic.ValueIdx

variable (m : (ℓ : Loc nD τ sig) → Buf (Elt Ideal) ℓ) (ρ : Dev nD → PrngReg)

/-- The padded result array after the run, as a function of the four arrays as the region finds them. -/
abbrev G (c : Dev nD) : Vec Ideal S8192x11264 .f32 := padded (xarr m c) (qarr m c) (sarr m c) (zarr m c)

/-- Element (r, o) of point t's output block sits at row (t % 32) · 256 + r, column (t / 32) · 1024 + o. -/
theorem emb_out (t : Fin cfg0.N) (r : Fin 256) (o : Fin 1024) :
    ((cfg0.win 4).blk t).view.emb (ix2 r o)
      = ix2 (⟨(t.val % 32) * 256 + r.val, by have := r.isLt; omega⟩ : Fin 8192) (⟨(t.val / 32) * 1024 + o.val, by have := lt_N t; have := o.isLt; omega⟩ : Fin 11264) := by
  obtain ⟨-, -, -, -, -, -, -, -, e40, e41⟩ := idx_facts t
  funext a; apply Fin.ext
  match a with
  | ⟨0, _⟩ => show win0_4.index t 0 * 256 + 1 * r.val = (t.val % 32) * 256 + r.val; rw [e40]; omega
  | ⟨1, _⟩ => show win0_4.index t 1 * 1024 + 1 * o.val = (t.val / 32) * 1024 + o.val; rw [e41]; omega

/-- What point t writes back is its block of G. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4, outsAt_eq m c t.val t.isLt]
  funext j
  obtain ⟨r, o, rfl⟩ : ∃ (r : Fin 256) (o : Fin 1024), j = ix2 r o := ⟨j 0, j 1, eq_ix2 j⟩
  show k0_pay3 (xblk m c t) (wtile m c t) (ix2 r o) = G m c (((cfg0.win 4).blk t).view.emb (ix2 r o))
  rw [emb_out t r o]
  refine (pay3_at (xblk m c t) (wtile m c t) r o).trans ?_
  unfold G padded
  refine Finset.sum_congr rfl fun cc _ => ?_
  have hx := xblk_at m c t (ix2 r cc)
  have hw := tile_elem (qblk m c t) (sblk m c t) (zblk m c t) o cc
  have hq := qblk_at m c t (ix2 o ⟨cc.val % 512, Nat.mod_lt _ (by decide)⟩) (t.val / 32) rfl (row_lt t _)
  have hs := sblk_at m c t (ix2 o ⟨cc.val % 512, Nat.mod_lt _ (by decide)⟩) (t.val / 32) rfl (row_lt t _)
  have hz := zblk_at m c t (ix2 o ⟨cc.val % 512, Nat.mod_lt _ (by decide)⟩) (t.val / 32) rfl (row_lt t _)
  show xblk m c t (ix2 r cc) * tile (qblk m c t) (sblk m c t) (zblk m c t) (ix2 o cc) = _
  rw [hx, hw, hq, hs, hz]

/-- Every element of the padded result is in some point's block: row block i0 / 256 of column tile i1 / 1024. -/
theorem cover (c : Dev nD) (i : S8192x11264.Idx) :
    ∃ t : Fin cfg0.N, (cfg0.win 4).flush t = true ∧ i ∈ ((cfg0.win 4).blk t).view.set := by
  have h0 : (i 0).val < 8192 := (i 0).isLt
  have h1 : (i 1).val < 11264 := (i 1).isLt
  have hN : cfg0.N = 352 := N_0
  let t : Fin cfg0.N := ⟨(i 1).val / 1024 * 32 + (i 0).val / 256, by rw [hN]; omega⟩
  have ht : t.val = (i 1).val / 1024 * 32 + (i 0).val / 256 := rfl
  obtain ⟨-, -, -, -, -, -, -, -, e40, e41⟩ := idx_facts t
  refine ⟨t, flush0_4 t, ?_⟩
  show i ∈ ((View.whole main_v11).slice (win0_4.rect t)).set
  rw [View.set_slice_whole, Rect.mem_set_unit]
  intro a
  match a with
  | ⟨0, _⟩ => show win0_4.index t 0 * 256 ≤ (i 0).val ∧ (i 0).val < win0_4.index t 0 * 256 + 256; rw [e40, ht]; omega
  | ⟨1, _⟩ => show win0_4.index t 1 * 1024 ≤ (i 1).val ∧ (i 1).val < win0_4.index t 1 * 1024 + 1024; rw [e41, ht]; omega

/-- So the padded result array ends holding G. -/
theorem final (c : Dev nD) : (dats m 0 c).arrAt 4 cfg0.N = G m c :=
  (dats m 0 c).arrAt_eq_of_cover 4 (G m c) (fun t _ => flushed_eq m c t) (cover c)

end Cert.KernelIdeal.Flush
end
-- ==== Proof.Run.lean ====
/-
  The kernel program's run at the ideal instance, read: after the pallas_call the one remaining host operation slices
  the padded result array, which holds G, to its first 11008 columns; the four arguments are left as they were.
-/
import proofs.«414449_j79680233276229_3_alg».proof.Proof.Flush
import Idealize.ShloMosaic.Lib.StableHlo.Run
import proofs.«414449_j79680233276229_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Flush Idealize.ShloMosaic.StableHlo

variable (m : (ℓ : Loc nD τ sig) → Buf (Elt Ideal) ℓ) (ρ : Dev nD → PrngReg)

/-- The program's result: the first 11008 columns of the padded result. -/
abbrev result (c : Dev nD) : Buf (Elt Ideal) ((c : Thread nD τ).loc main_v12) :=
  extractStridedSlice S8192x11008 ![0, 0] (G m c) slices_S8192x11264_S8192x11008_0_0

/-- The one host operation after the pallas_call slices the padded result array, which ends holding G. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11) = G m c :=
    (Pipeline.withArrays_arr spec0 launch0.win.arr_inj c (V0 m c) (fun w => (dats m 0 c).arrAt w cfg0.N) 4).trans (final m c)
  rw [e]

/-- The run of the kernel program at the ideal instance: its result array ends at the sliced G, its arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Run
end
-- ==== Proof.HostIn.lean ====
/-
  What the host operations before the kernel leave in the four arrays its windows read, at an index.

  x is rounded to bf16, each row of 4096 columns is cut into 512 words of 8 nibbles, the two axes are swapped and
  the row is flattened again: position c = i · 512 + p of the result (nibble i, word p) holds column 8 p + i of x.
  In row-major terms, with c = i · 512 + p, the flat position t · 4096 + c of (t, c) is that of (t, i, p) in
  8192 × 8 × 512; the swap reads (t, p, i) in 8192 × 512 × 8, whose flat position is t · 4096 + (8 p + i).

  The packed weights are padded below by 256 rows of zeros; the scales and the zeros are first repeated sixteen
  times along a new last axis and flattened (column p of 512 is group p / 16 of 32, because the flat position
  o · 512 + p of (o, p) is that of (o, p / 16, p % 16) in 11008 × 32 × 16) and then padded the same way. At one
  of the 11008 original rows the padding reads its operand.
-/
import proofs.«414449_j79680233276229_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostIn

open Cert.KernelIdeal Cert.KernelIdeal.Gen Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-- A padding by rows below, read at one of the original rows, is the operand there. -/
theorem pad_rows_apply {α : Type} (x : S11008x512.Idx → α) (v : S_.Idx → α) (o : Fin 11264) (p : Fin 512)
    (ho : o.val < 11008) :
    pad S11264x512 ![0, 0] ![256, 0] ![0, 0] x v pads_S11008x512_S11264x512_02560_000 h_S_ (ix2 o p)
      = x (ix2 ⟨o.val, ho⟩ p) := by
  unfold pad
  split
  · refine congrArg x (funext fun a => Fin.ext ?_)
    match a with
    | ⟨0, _⟩ => show (o.val - 0) / 1 = o.val; omega
    | ⟨1, _⟩ => show (p.val - 0) / 1 = p.val; omega
  · rename_i hnot
    refine absurd (fun a => ?_) hnot
    have hp : p.val < 512 := p.isLt
    match a with
    | ⟨0, _⟩ =>
      refine ⟨?_, ?_, ?_⟩
      · show 0 ≤ o.val; omega
      · show (o.val - 0) % 1 = 0; omega
      · show (o.val - 0) / 1 < 11008; omega
    | ⟨1, _⟩ =>
      refine ⟨?_, ?_, ?_⟩
      · show 0 ≤ p.val; omega
      · show (p.val - 0) % 1 = 0; omega
      · show (p.val - 0) / 1 < 512; omega

/-- A per-group array repeated sixteen times along a new last axis and flattened: column p is group p / 16. -/
theorem expand_apply {α : Type} (y : S11008x32.Idx → α) (o : Fin 11008) (p : Fin 512) :
    shapeCast S11008x512 (broadcastInDim S11008x32x16 ![0, 1] bcast_S11008x32_S11008x32x16_0_1 y)
        shapeCasts_S11008x32x16_S11008x512 (ix2 o p)
      = y (ix2 o ⟨p.val / 16, by have := p.isLt; omega⟩) := by
  have ho : o.val < 11008 := o.isLt
  have hp : p.val < 512 := p.isLt
  rw [shapeCast_apply _ shapeCasts_S11008x32x16_S11008x512 (ix2 o p)
    (ix3 o (⟨p.val / 16, by omega⟩ : Fin 32) (⟨p.val % 16, by omega⟩ : Fin 16))
    (by rw [Shape.rowMajor_val_three, Shape.rowMajor_val_two]
        show (o.val * 32 + p.val / 16) * 16 + p.val % 16 = o.val * 512 + p.val
        omega)]
  exact broadcastInDim_apply _ bcast_S11008x32_S11008x32x16_0_1 y _ _ (fun a => match a with
    | ⟨0, _⟩ => by show o.val = if (11008 : Nat) = 1 then 0 else o.val; rw [if_neg (by decide)]
    | ⟨1, _⟩ => by show p.val / 16 = if (32 : Nat) = 1 then 0 else p.val / 16; rw [if_neg (by decide)])

/-- Splitting each row into (word, nibble), swapping the two, and flattening again: position c = i · 512 + p of
    the result holds column 8 p + i of the operand. -/
theorem nibble_major_apply {α : Type} (y : S8192x4096.Idx → α) (t : Fin 8192) (cc : Fin 4096) :
    shapeCast S8192x4096 (transpose S8192x8x512 [0, 2, 1]
        (shapeCast S8192x512x8 y shapeCasts_S8192x4096_S8192x512x8) transposes_S8192x512x8_S8192x8x512_0_2_1)
        shapeCasts_S8192x8x512_S8192x4096 (ix2 t cc)
      = y (ix2 t ⟨(cc.val % 512) * 8 + cc.val / 512, by have := cc.isLt; omega⟩) := by
  have ht : t.val < 8192 := t.isLt
  have hc : cc.val < 4096 := cc.isLt
  rw [shapeCast_apply _ shapeCasts_S8192x8x512_S8192x4096 (ix2 t cc)
    (ix3 t (⟨cc.val / 512, by omega⟩ : Fin 8) (⟨cc.val % 512, by omega⟩ : Fin 512))
    (by rw [Shape.rowMajor_val_three, Shape.rowMajor_val_two]
        show (t.val * 8 + cc.val / 512) * 512 + cc.val % 512 = t.val * 4096 + cc.val
        omega)]
  rw [transpose_apply [0, 2, 1] _ transposes_S8192x512x8_S8192x8x512_0_2_1 _
    (ix3 t (⟨cc.val % 512, by omega⟩ : Fin 512) (⟨cc.val / 512, by omega⟩ : Fin 8))
    (fun b => match b with
      | ⟨0, _⟩ => rfl
      | ⟨1, _⟩ => rfl
      | ⟨2, _⟩ => rfl)]
  exact shapeCast_apply y shapeCasts_S8192x4096_S8192x512x8 _ _
    (by rw [Shape.rowMajor_val_two, Shape.rowMajor_val_three]
        show t.val * 4096 + ((cc.val % 512) * 8 + cc.val / 512) = (t.val * 512 + cc.val % 512) * 8 + cc.val / 512
        omega)

theorem xperm_at (c : Dev nD) (t : Fin 8192) (cc : Fin 4096) :
    V m c main_v3 (ix2 t cc) = FloatOps.truncf .bf16 bitsLt_bf16_f32 (m ((c : Thread nD τ).loc main_arg0) (ix2 t ⟨(cc.val % 512) * 8 + cc.val / 512, by have := cc.isLt; omega⟩)) := by
  have e : (V m c main_v3 : S8192x4096.Idx → Elt F .bf16)
      = shapeCast S8192x4096 (transpose S8192x8x512 [0, 2, 1]
          (shapeCast S8192x512x8 (truncf .bf16 (m ((c : Thread nD τ).loc main_arg0)) bitsLt_bf16_f32)
            shapeCasts_S8192x4096_S8192x512x8) transposes_S8192x512x8_S8192x8x512_0_2_1)
          shapeCasts_S8192x8x512_S8192x4096 := by
    dsimp only [Gen.V, Gen.V0]
    simp only [Gen.hostOps0, Gen.hostOps0_1, Gen.hostOps0_2, Gen.hostOps0_3, Gen.hostOps0_4, Gen.hostOps0_5,
      List.flatten_cons, List.flatten_nil, List.append_nil, List.cons_append, List.nil_append]
    after_results
    rfl
  rw [e, nibble_major_apply]
  rfl

theorem qpad_at (c : Dev nD) (o : Fin 11264) (p : Fin 512) (ho : o.val < 11008) :
    V m c main_v8 (ix2 o p) = m ((c : Thread nD τ).loc main_arg1) (ix2 ⟨o.val, ho⟩ p) := by
  have e : (V m c main_v8 : S11264x512.Idx → Elt F .i32)
      = pad S11264x512 ![0, 0] ![256, 0] ![0, 0] (m ((c : Thread nD τ).loc main_arg1))
          (constantI S_ 32 0#32 : S_.Idx → Elt F .i32) pads_S11008x512_S11264x512_02560_000 h_S_ := by
    dsimp only [Gen.V, Gen.V0]
    simp only [Gen.hostOps0, Gen.hostOps0_1, Gen.hostOps0_2, Gen.hostOps0_3, Gen.hostOps0_4, Gen.hostOps0_5,
      List.flatten_cons, List.flatten_nil, List.append_nil, List.cons_append, List.nil_append]
    after_results
    rfl
  rw [e, pad_rows_apply]

theorem spad_at (c : Dev nD) (o : Fin 11264) (p : Fin 512) (ho : o.val < 11008) :
    V m c main_v9 (ix2 o p) = m ((c : Thread nD τ).loc main_arg2) (ix2 ⟨o.val, ho⟩ ⟨p.val / 16, by have := p.isLt; omega⟩) := by
  have e : (V m c main_v9 : S11264x512.Idx → Elt F .f32)
      = pad S11264x512 ![0, 0] ![256, 0] ![0, 0]
          (shapeCast S11008x512 (broadcastInDim S11008x32x16 ![0, 1] bcast_S11008x32_S11008x32x16_0_1
            (m ((c : Thread nD τ).loc main_arg2))) shapeCasts_S11008x32x16_S11008x512)
          (sitofp .f32 (constantI S_ 32 0#32) : S_.Idx → Elt F .f32) pads_S11008x512_S11264x512_02560_000 h_S_ := by
    dsimp only [Gen.V, Gen.V0]
    simp only [Gen.hostOps0, Gen.hostOps0_1, Gen.hostOps0_2, Gen.hostOps0_3, Gen.hostOps0_4, Gen.hostOps0_5,
      List.flatten_cons, List.flatten_nil, List.append_nil, List.cons_append, List.nil_append]
    after_results
    rfl
  rw [e, pad_rows_apply _ _ o p ho, expand_apply]

theorem zpad_at (c : Dev nD) (o : Fin 11264) (p : Fin 512) (ho : o.val < 11008) :
    V m c main_v10 (ix2 o p) = m ((c : Thread nD τ).loc main_arg3) (ix2 ⟨o.val, ho⟩ ⟨p.val / 16, by have := p.isLt; omega⟩) := by
  have e : (V m c main_v10 : S11264x512.Idx → Elt F .f32)
      = pad S11264x512 ![0, 0] ![256, 0] ![0, 0]
          (shapeCast S11008x512 (broadcastInDim S11008x32x16 ![0, 1] bcast_S11008x32_S11008x32x16_0_1
            (m ((c : Thread nD τ).loc main_arg3))) shapeCasts_S11008x32x16_S11008x512)
          (sitofp .f32 (constantI S_ 32 0#32) : S_.Idx → Elt F .f32) pads_S11008x512_S11264x512_02560_000 h_S_ := by
    dsimp only [Gen.V, Gen.V0]
    simp only [Gen.hostOps0, Gen.hostOps0_1, Gen.hostOps0_2, Gen.hostOps0_3, Gen.hostOps0_4, Gen.hostOps0_5,
      List.flatten_cons, List.flatten_nil, List.append_nil, List.cons_append, List.nil_append]
    after_results
    rfl
  rw [e, pad_rows_apply _ _ o p ho, expand_apply]

end Cert.KernelIdeal.HostIn

end
-- ==== Proof.Bridge.lean ====
/-
  The kernel's padded result, cut back to its first 11008 columns, is the layer.

  Element (t, o) of the padded result, for o < 11008, is the sum over the 4096 nibble-major positions c of
  x-rearranged at (t, c) times the weight dequantized from word c % 512 of row o at nibble c / 512, with the zero
  and the scale read at column c % 512 of the arrays expanded to the packed width. The rearranged x at (t, c) is x
  at column 8 (c % 512) + c / 512 (the rounding to bf16 is the identity on the extended reals); row o of the padded
  words, scales and zeros is row o of the originals, and column c % 512 of an expanded array is group c % 512 / 16.
  So the summand at position c is x (t, k) · weight (o, k) at the column k = 8 (c % 512) + c / 512 that position c
  holds: its word is c % 512, its nibble c / 512, its group c % 512 / 16. The positions run over the columns
  bijectively, and the sum over the positions is the sum over the columns.
-/
import proofs.«414449_j79680233276229_3_alg».proof.Proof.HostIn
import proofs.«414449_j79680233276229_3_alg».proof.Proof.Padded

noncomputable section

open scoped BigOperators

namespace Cert.KernelIdeal.Bridge

open Cert.KernelIdeal Cert.KernelIdeal.Gen Idealize.ShloMosaic Idealize.ShloMosaic.TcCoe Idealize.SL.Sem Idealize.ShloMosaic.ValueIdx
open Cert.KernelIdeal.HostIn

variable (m : (ℓ : Loc nD τ sig) → Buf (Elt Ideal) ℓ)

/-- Position c of the nibble-major order: word c % 512, nibble c / 512, group c % 512 / 16. -/
theorem word_at (cc : Fin 4096) :
    Awq.wordOf (Awq.unperm cc) = (⟨cc.val % 512, Nat.mod_lt _ (by decide)⟩ : Fin 512) :=
  Fin.ext (Awq.wordOf_unperm cc)
theorem nibble_at (cc : Fin 4096) :
    Awq.nibOf (Awq.unperm cc) = (⟨cc.val / 512, by have := cc.isLt; omega⟩ : Fin 8) :=
  Fin.ext (Awq.nibOf_unperm cc)
theorem group_at (cc : Fin 4096) :
    Awq.groupOf (Awq.unperm cc) = (⟨cc.val % 512 / 16, by have := cc.isLt; omega⟩ : Fin 32) :=
  Fin.ext (Awq.groupOf_unperm cc)

/-- The layer's sum over the columns, taken in the nibble-major order: position c holds column 8 (c % 512) + c / 512,
    whose word is c % 512, whose nibble is c / 512 and whose group is c % 512 / 16. -/
theorem sum_nibble_major (x : (⟨2, ![8192, 4096]⟩ : Shape).Idx → EReal)
    (q : (⟨2, ![11008, 512]⟩ : Shape).Idx → BitVec 32) (s z : (⟨2, ![11008, 32]⟩ : Shape).Idx → EReal)
    (t : Fin 8192) (o : Fin 11008) :
    (∑ cc : Fin 4096, x (ix2 t ⟨(cc.val % 512) * 8 + cc.val / 512, by have := cc.isLt; omega⟩)
        * Awq.deq (q (ix2 o ⟨cc.val % 512, Nat.mod_lt _ (by decide)⟩)) ⟨cc.val / 512, by have := cc.isLt; omega⟩
            (z (ix2 o ⟨cc.val % 512 / 16, by have := cc.isLt; omega⟩))
            (s (ix2 o ⟨cc.val % 512 / 16, by have := cc.isLt; omega⟩)))
      = Awq.linear x q s z (ix2 t o) := by
  show _ = ∑ k : Fin 4096, x (ix2 t k) * Awq.weight q s z o k
  rw [← Awq.sum_unperm (fun k => x (ix2 t k) * Awq.weight q s z o k)]
  refine Finset.sum_congr rfl fun cc _ => ?_
  show _ = x (ix2 t (Awq.unperm cc))
    * Awq.deq (q (ix2 o (Awq.wordOf (Awq.unperm cc)))) (Awq.nibOf (Awq.unperm cc))
        (z (ix2 o (Awq.groupOf (Awq.unperm cc)))) (s (ix2 o (Awq.groupOf (Awq.unperm cc))))
  rw [word_at, nibble_at, group_at]
  rfl

theorem sliced_is_linear (c : Dev nD) :
    extractStridedSlice S8192x11008 ![0, 0]
        (Cert.KernelIdeal.Flush.padded (V m c main_v3) (V m c main_v8) (V m c main_v9) (V m c main_v10))
        slices_S8192x11264_S8192x11008_0_0
      = Awq.linear (m ((c : Thread nD τ).loc main_arg0)) (m ((c : Thread nD τ).loc main_arg1))
          (m ((c : Thread nD τ).loc main_arg2)) (m ((c : Thread nD τ).loc main_arg3)) := by
  funext i
  obtain ⟨t, o, rfl⟩ : ∃ (t : Fin 8192) (o : Fin 11008), i = ix2 t o := ⟨i 0, i 1, eq_ix2 i⟩
  have ho : o.val < 11008 := o.isLt
  rw [extractStridedSlice_apply ![0, 0] _ slices_S8192x11264_S8192x11008_0_0 (ix2 t o)
    (ix2 t (⟨o.val, by omega⟩ : Fin 11264))
    (fun a => match a with
      | ⟨0, _⟩ => by show t.val = 0 + t.val; omega
      | ⟨1, _⟩ => by show o.val = 0 + o.val; omega)]
  refine Eq.trans ?_ (sum_nibble_major (m ((c : Thread nD τ).loc main_arg0)) (m ((c : Thread nD τ).loc main_arg1))
    (m ((c : Thread nD τ).loc main_arg2)) (m ((c : Thread nD τ).loc main_arg3)) t o)
  unfold Cert.KernelIdeal.Flush.padded
  refine Finset.sum_congr rfl fun cc _ => ?_
  have key : ∀ (a a' : EReal) (b b' : BitVec 32) (n : Fin 8) (z z' s s' : EReal),
      a = a' → b = b' → z = z' → s = s' → a * Awq.deq b n z s = a' * Awq.deq b' n z' s' := by
    intro a a' b b' n z z' s s' h1 h2 h3 h4
    rw [h1, h2, h3, h4]
  exact key _ _ _ _ _ _ _ _ _ (xperm_at m c t cc) (qpad_at m c _ _ ho) (zpad_at m c _ _ ho) (spad_at m c _ _ ho)

end Cert.KernelIdeal.Bridge

end
-- ==== Proof.lean ====
/-
  An INT4 group-quantized linear layer: x · dequant(qweight, scales, zeros)ᵀ, the kernel against its jnp reference, as
  equal functions of the four arguments over the extended reals.

  Both programs dequantize weight (o, k) as (nibble k % 8 of word k / 8 of row o, minus the zero of group k / 128)
  times that group's scale, and sum x (t, k) times it over the 4096 input columns (Spec: Awq.linear). The reference
  does so literally (RefValue). The kernel permutes the columns of x into nibble-major order, expands zeros and
  scales to the packed width, pads the 11008 output rows of the weight to 11264, and walks an 11 x 32 grid: the first
  row block of a column tile dequantizes the tile into a scratch one nibble slab at a time, every row block multiplies
  its rows of x by the scratch (Pieces, Inv: by induction on the grid point the scratch holds the point's own tile);
  the output blocks tile the padded result (Flush), of which the last host operation keeps the first 11008 columns
  (Run). The padding rows only feed the dropped columns, the format changes are the identity on the extended reals,
  and the one law joining the two sides is that a finite sum may be taken in the nibble-major order of its columns
  (Bridge, by Awq.sum_unperm): commutativity and associativity of addition only, so the precondition that the inputs
  are finite is never opened. The ideal pass rewrote nothing, so the idealization claim is trivial.
-/
import proofs.«414449_j79680233276229_3_alg».proof.Defs
import proofs.«414449_j79680233276229_3_alg».proof.Proof.Gen.Kernel
import proofs.«414449_j79680233276229_3_alg».proof.Proof.Gen.Kernel.Skeleton
import proofs.«414449_j79680233276229_3_alg».proof.Proof.Gen.Kernel.Launch
import proofs.«414449_j79680233276229_3_alg».proof.Proof.Gen.Kernel.Points
import proofs.«414449_j79680233276229_3_alg».proof.Proof.Gen.Kernel.Frame
import proofs.«414449_j79680233276229_3_alg».proof.Proof.Gen.KernelIdeal
import proofs.«414449_j79680233276229_3_alg».proof.Proof.Gen.KernelIdeal.Skeleton
import proofs.«414449_j79680233276229_3_alg».proof.Proof.Gen.KernelIdeal.Launch
import proofs.«414449_j79680233276229_3_alg».proof.Proof.Gen.KernelIdeal.Points
import proofs.«414449_j79680233276229_3_alg».proof.Proof.Gen.KernelIdeal.Frame
import proofs.«414449_j79680233276229_3_alg».proof.Proof.Gen.ReferenceIdeal
import proofs.«414449_j79680233276229_3_alg».proof.Proof.Gen.ReferenceIdeal.Run
import proofs.«414449_j79680233276229_3_alg».proof.Proof.Gen.ReferenceIdeal.Read
import proofs.«414449_j79680233276229_3_alg».proof.Proof.Gen.Pre_finite_inputs
import proofs.«414449_j79680233276229_3_alg».proof.Proof.RefValue
import proofs.«414449_j79680233276229_3_alg».proof.Proof.Run
import proofs.«414449_j79680233276229_3_alg».proof.Proof.Bridge
import Idealize.ShloMosaic.Adequacy
import Idealize.ShloMosaic.Init

noncomputable section

namespace Cert.Proof

open Idealize.ShloMosaic Idealize.SL.Sem

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the layer of the arguments: the kernel's sliced padded result (Run, Bridge) and the
    reference's product (RefValue), from memories that agree on the four arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_is_linear,
    (hagree c).1, (hagree c).2.1, (hagree c).2.2.1, (hagree c).2.2.2]
  exact (Cert.KernelIdeal.Bridge.sliced_is_linear m c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
